-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S2048x2048 : Shape := ⟨2, ![2048, 2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_arg4 : FVec F S2048x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  main_v23

def fn {F : FTy → Type} [FloatOps F] (main_arg0 : FVec F S4096x1024 .f32) (main_arg1 : FVec F S4096x1024 .f32) (main_arg2 : FVec F S2048x2048 .f32) (main_arg3 : FVec F S2048x2048 .f32) (main_arg4 : FVec F S2048x2048 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S4096x1024 : Shape := ⟨2, ![4096, 1024]⟩
abbrev S2048x2048 : Shape := ⟨2, ![2048, 2048]⟩
abbrev S4096x2048 : Shape := ⟨2, ![4096, 2048]⟩
abbrev S256x2048 : Shape := ⟨2, ![256, 2048]⟩

abbrev nBuf : Space → Nat
  | .hbm => 11
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S4096x2048, .f32⟩
  | .hbm, ⟨6, _⟩ => ⟨S4096x2048, .bf16⟩
  | .hbm, ⟨7, _⟩ => ⟨S2048x2048, .bf16⟩
  | .hbm, ⟨8, _⟩ => ⟨S2048x2048, .bf16⟩
  | .hbm, ⟨9, _⟩ => ⟨S2048x2048, .bf16⟩
  | .hbm, ⟨10, _⟩ => ⟨S4096x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S2048x2048, .bf16⟩
  | .local _ .vmem, ⟨4, _⟩ => ⟨S2048x2048, .bf16⟩
  | .local _ .vmem, ⟨5, _⟩ => ⟨S256x2048, .f32⟩
  | .local _ .vmem, ⟨6, _⟩ => ⟨S256x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  concatenates_S4096x1024_S4096x1024_S4096x2048_d1 : Shape.Concatenates [S4096x1024, S4096x1024] S4096x2048 1
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .bf16 = 32 ∨ (Rect.block (s := S4096x2048) S256x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S4096x2048.size a
  hwx0_4 : ∀ i : grid0.Coords, EltTy.bits .f32 = 32 ∨ (Rect.block (s := S4096x2048) S256x2048.size (cc0_transform_4 i) (hinb0_4 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_v1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S2048x2048 : Shape := ⟨2, ![2048, 2048]⟩
abbrev S4096x2048 : Shape := ⟨2, ![4096, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x1024, .f32⟩
  | .hbm, ⟨8, _⟩ => ⟨S4096x1024, .f32⟩
  | .hbm, ⟨9, _⟩ => ⟨S4096x2048, .f32⟩
  | .hbm, ⟨10, _⟩ => ⟨S4096x2048, .f32⟩
  | .hbm, ⟨11, _⟩ => ⟨S4096x1024, .f32⟩
  | .hbm, ⟨12, _⟩ => ⟨S4096x1024, .f32⟩
  | .hbm, ⟨13, _⟩ => ⟨S4096x2048, .f32⟩
  | .hbm, ⟨14, _⟩ => ⟨S4096x2048, .f32⟩
  | .hbm, ⟨15, _⟩ => ⟨S4096x1024, .f32⟩
  | .hbm, ⟨16, _⟩ => ⟨S4096x1024, .f32⟩
  | .hbm, ⟨17, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  concatenates_S4096x1024_S4096x1024_S4096x2048_d1 : Shape.Concatenates [S4096x1024, S4096x1024] S4096x2048 1
  slices_S4096x2048_S4096x1024_0_0 : S4096x2048.Slices ![0, 0] S4096x1024
  slices_S4096x2048_S4096x1024_0_1024 : S4096x2048.Slices ![0, 1024] S4096x1024
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.ChainSpec.lean ====
/-
  THE FUNCTION BOTH PROGRAMS COMPUTE. Two [4096, 1024] arrays are joined side by side into one [4096, 2048] array X, and
  X is multiplied from the right by three [2048, 2048] arrays in turn: ((X · W0) · W1) · W2, every product an exact sum
  of products of extended reals along the contracted coordinate. The products are taken in the same order on both
  sides, so no law of the extended reals beyond the definition of the sum is needed, and finiteness is never used.

  Here: the product of two arrays entry by entry (`mm`); that a row of a product depends on the same row of the left
  factor only (`mm_rows`), which is what lets a block of 256 rows be computed from a block of 256 rows; the joined array
  (`joined`) and that the program's concatenation along the columns is it (`concatenate_eq_joined`); and that cutting an
  array into its left and right halves and joining them again gives the array back (`concatenate_halves`).
-/
import Idealize.ShloMosaic.Lib.ValueIdx
import Idealize.ShloMosaic.Lib.Pipeline.Value
import Idealize.ShloMosaic.PureOps.Ideal

open scoped BigOperators

noncomputable section

namespace Cert.Chain

open Idealize.ShloMosaic Idealize.ShloMosaic.ValueIdx

abbrev S4096x1024 : Shape := ⟨2, ![4096, 1024]⟩
abbrev S4096x2048 : Shape := ⟨2, ![4096, 2048]⟩
abbrev S2048x2048 : Shape := ⟨2, ![2048, 2048]⟩

/-! ## The product -/

/-- The product of an r × k array by a k × n array: entry (a, b) is the sum over c of A(a, c) · B(c, b). -/
def mm {r k n : Nat} (A : (⟨2, ![r, k]⟩ : Shape).Idx → EReal) (B : (⟨2, ![k, n]⟩ : Shape).Idx → EReal) :
    (⟨2, ![r, n]⟩ : Shape).Idx → EReal :=
  fun j => ∑ c : Fin k, A (ix2 (j 0) c) * B (ix2 c (j 1))

theorem mm_apply {r k n : Nat} (A : (⟨2, ![r, k]⟩ : Shape).Idx → EReal) (B : (⟨2, ![k, n]⟩ : Shape).Idx → EReal)
    (a : Fin r) (b : Fin n) : mm A B (ix2 a b) = ∑ c : Fin k, A (ix2 a c) * B (ix2 c b) := rfl

/-- Row a of a product is made from row f(a) of the left factor when A' has, in its row a, row f(a) of A (the right
    factors equal): a block of rows of a product is the product of that block of rows. -/
theorem mm_rows {r r' k n : Nat} (f : Fin r' → Fin r) (A : (⟨2, ![r, k]⟩ : Shape).Idx → EReal)
    (A' : (⟨2, ![r', k]⟩ : Shape).Idx → EReal) (B B' : (⟨2, ![k, n]⟩ : Shape).Idx → EReal) (hB : B' = B)
    (h : ∀ (a : Fin r') (c : Fin k), A' (ix2 a c) = A (ix2 (f a) c)) (a : Fin r') (b : Fin n) :
    mm A' B' (ix2 a b) = mm A B (ix2 (f a) b) := by
  subst hB
  rw [mm_apply, mm_apply]
  exact Finset.sum_congr rfl fun c _ => by rw [h a c]

/-! ## Joining two arrays along the columns -/

/-- Two [4096, 1024] arrays side by side: column b of the joined array is column b of the first for b < 1024 and
    column b − 1024 of the second otherwise. -/
def joined {α : Type} (x0 x1 : S4096x1024.Idx → α) : S4096x2048.Idx → α :=
  fun j => if h : (j 1).val < 1024 then x0 (ix2 (j 0) ⟨(j 1).val, h⟩)
    else x1 (ix2 (j 0) ⟨(j 1).val - 1024, by have h2 : (j 1).val < 2048 := (j 1).isLt; omega⟩)

/-- The concatenation of two [4096, 1024] arrays along axis 1 is the joined array. -/
theorem concatenate_eq_joined {α : Type} (x0 x1 : S4096x1024.Idx → α)
    (h : Shape.Concatenates [S4096x1024, S4096x1024] S4096x2048 1) :
    concatenate S4096x2048 1 [⟨S4096x1024, x0⟩, ⟨S4096x1024, x1⟩] h = joined x0 x1 := by
  funext j
  unfold joined
  split
  · rename_i hlt
    exact concatenate_pair_apply_left 1 x0 x1 h j rfl _ (fun b => by
      match b with
      | ⟨0, _⟩ => rfl
      | ⟨1, _⟩ => rfl)
  · rename_i hge
    exact concatenate_pair_apply_right 1 x0 x1 h j rfl rfl _ (fun b hb => by
      match b with
      | ⟨0, _⟩ => rfl
      | ⟨1, _⟩ => exact absurd rfl hb) (by
      have h2 : (j 1).val < 2048 := (j 1).isLt
      show (j 1).val - 1024 + 1024 = (j 1).val
      omega)

/-- The left and the right half of a [4096, 2048] array, joined again, are the array. -/
theorem concatenate_halves {α : Type} (y : S4096x2048.Idx → α)
    (h0 : S4096x2048.Slices ![0, 0] S4096x1024) (h1 : S4096x2048.Slices ![0, 1024] S4096x1024)
    (h : Shape.Concatenates [S4096x1024, S4096x1024] S4096x2048 1) :
    concatenate S4096x2048 1 [⟨S4096x1024, extractStridedSlice S4096x1024 ![0, 0] y h0⟩,
      ⟨S4096x1024, extractStridedSlice S4096x1024 ![0, 1024] y h1⟩] h = y := by
  rw [concatenate_eq_joined]
  funext j
  unfold joined
  split
  · rename_i hlt
    refine (extractStridedSlice_apply ![0, 0] y h0 _ j (fun a => ?_)).trans rfl
    match a with
    | ⟨0, _⟩ => show (j 0).val = 0 + (j 0).val; omega
    | ⟨1, _⟩ => show (j 1).val = 0 + (j 1).val; omega
  · rename_i hge
    have h2 : (j 1).val < 2048 := (j 1).isLt
    refine (extractStridedSlice_apply ![0, 1024] y h1 _ j (fun a => ?_)).trans rfl
    match a with
    | ⟨0, _⟩ => show (j 0).val = 0 + (j 0).val; omega
    | ⟨1, _⟩ => show (j 1).val = 1024 + ((j 1).val - 1024); omega

/-! ## The whole function -/

/-- ((X · W0) · W1) · W2 with X the two inputs side by side. -/
def chain (x0 x1 : S4096x1024.Idx → EReal) (w0 w1 w2 : S2048x2048.Idx → EReal) : S4096x2048.Idx → EReal :=
  mm (mm (mm (joined x0 x1) w0) w1) w2

end Cert.Chain

end
-- ==== Proof.KernelPayload.lean ====
/-
  WHAT THE KERNEL BODY STORES, AT THE IDEAL VALUES. The body loads a block of 256 rows of the joined input and the three
  whole weight arrays, multiplies the block by the first weights into a zero accumulator, narrows the product to bf16,
  multiplies by the second weights, narrows, multiplies by the third weights, and stores the result. At the ideal
  values narrowing a float is the identity and a product into the zero accumulator is the plain sum of products, so the
  stored block is ((B · W0) · W1) · W2 for the loaded block B.
-/
import proofs.«118144_j91190745629219_1_alg».proof.Proof.Gen.KernelIdeal.Skeleton
import proofs.«118144_j91190745629219_1_alg».proof.Proof.LibPlainMatmul
import proofs.«118144_j91190745629219_1_alg».proof.Proof.ChainSpec
import Idealize.ShloMosaic.Lib.Pipeline.Value

open scoped BigOperators

noncomputable section

namespace Cert.KernelIdeal.KValue

open Cert.KernelIdeal Cert.KernelIdeal.Gen Cert.KernelIdeal.Facts₀ Idealize.ShloMosaic Idealize.ShloMosaic.ValueIdx
open Cert.Chain (mm)

/-- One product of the body, a [256, 2048] block by a [2048, 2048] array into the zero accumulator, is the product
    of the two arrays entry by entry. -/
theorem matmul_eq_mm (A : FVec Ideal S256x2048 .bf16) (B : FVec Ideal S2048x2048 .bf16) :
    matmul dot_S256x2048_S2048x2048_S256x2048_1_0_0_1_n_n none A B (constant S256x2048 .f32 0x00000000#32) = mm A B := by
  funext j
  obtain ⟨a, b, rfl⟩ : ∃ (a : Fin 256) (b : Fin 2048), j = ix2 a b := ⟨j 0, j 1, eq_ix2 j⟩
  exact PlainMatmul.matmul_zero_apply _ Facts₀.dot_S256x2048_S2048x2048_S256x2048_1_0_0_1_n_n_wf rfl none A B a b

/-- Narrowing a float array to bf16 leaves every ideal value as it is. -/
theorem truncf_eq (A : FVec Ideal S256x2048 .f32) (h : FTy.bits .bf16 < FTy.bits .f32) :
    (truncf .bf16 A h : FVec Ideal S256x2048 .bf16) = A := rfl

/-- The stored block is the chain of the three products of the loaded block. -/
theorem payload_eq (b0 : Vec Ideal S256x2048 .bf16) (b1 b2 b3 : Vec Ideal S2048x2048 .bf16) :
    k0_pay1 (F := Ideal) b0 b1 b2 b3 = mm (mm (mm b0 b1) b2) b3 := by
  unfold k0_pay1
  simp only [shapeCast_self, truncf_eq, matmul_eq_mm]

end Cert.KernelIdeal.KValue

end
-- ==== Proof.KernelValue.lean ====
/-
  THE KERNEL'S RESULT ARRAY. The grid has 16 points; point t is handed rows 256·t … 256·t + 255 of the joined input
  (all 2048 columns) and the three weight arrays whole, and writes back rows 256·t … 256·t + 255 of the result. Before
  the grid runs, the host joins the two inputs side by side and narrows the joined array and the weights to bf16, which
  at the ideal values changes nothing. A row of a product depends on the same row of the left factor only, so what
  point t writes back is rows 256·t … of ((X · W0) · W1) · W2 for the whole joined input X; the 16 blocks of rows cover
  the array, so the array ends holding that chain.
-/
import proofs.«118144_j91190745629219_1_alg».proof.Proof.Gen.KernelIdeal.Value
import proofs.«118144_j91190745629219_1_alg».proof.Proof.KernelPayload
import Idealize.ShloMosaic.Lib.StableHlo.Run

open scoped BigOperators

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)
open Cert.Chain (mm joined chain mm_rows)

variable (m : (ℓ : Loc nD τ sig) → Buf (Elt Ideal) ℓ) (ρ : Dev nD → PrngReg)

/-! ## The arrays as the grid finds them -/

/-- The first window's array is the two inputs side by side. -/
theorem entry_joined (c : Dev nD) : (V m c main_v1 : S4096x2048.Idx → EReal)
    = joined (m ((c : Thread nD τ).loc main_arg0)) (m ((c : Thread nD τ).loc main_arg1)) := by
  refine Eq.trans ?_ (Cert.Chain.concatenate_eq_joined _ _ Facts₀.concatenates_S4096x1024_S4096x1024_S4096x2048_d1)
  dsimp only [Gen.V, Gen.hostOps0]; after_results; rfl

/-- The weight windows' arrays are the weights. -/
theorem entry_w0 (c : Dev nD) : (V m c main_v2 : S2048x2048.Idx → EReal) = m ((c : Thread nD τ).loc main_arg2) := by
  dsimp only [Gen.V, Gen.hostOps0]; after_results; rfl
theorem entry_w1 (c : Dev nD) : (V m c main_v3 : S2048x2048.Idx → EReal) = m ((c : Thread nD τ).loc main_arg3) := by
  dsimp only [Gen.V, Gen.hostOps0]; after_results; rfl
theorem entry_w2 (c : Dev nD) : (V m c main_v4 : S2048x2048.Idx → EReal) = m ((c : Thread nD τ).loc main_arg4) := by
  dsimp only [Gen.V, Gen.hostOps0]; after_results; rfl

/-! ## The blocks -/

/-- Which block each window holds at point t: block row t of the joined input and of the result, the one block of
    each weight array (decided over the 16 points). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row a of block t is row 256·t + a of the array. -/
def rowOf (t : Fin cfg0.N) (a : Fin 256) : Fin 4096 :=
  ⟨t.val * 256 + a.val, by have ht : t.val < 16 := t.isLt; have ha := a.isLt; omega⟩

/-- Point t's block of the first window, entry (a, k), is entry (256·t + a, k) of the joined input. -/
theorem block0_apply (c : Dev nD) (t : Fin cfg0.N) (a : Fin 256) (k : Fin 2048) :
    (iblk m c 0 t : S256x2048.Idx → EReal) (ix2 a k)
      = joined (m ((c : Thread nD τ).loc main_arg0)) (m ((c : Thread nD τ).loc main_arg1)) (ix2 (rowOf t a) k) := by
  obtain ⟨e0, e1, -⟩ := idx_facts t
  show (V m c main_v1 : S4096x2048.Idx → EReal) (((cfg0.win 0).blk t).view.emb (ix2 a k)) = _
  rw [entry_joined]
  refine congrArg _ (funext fun ax => Fin.ext ?_)
  match ax with
  | ⟨0, _⟩ => show win0_0.index t (0 : Fin 2) * 256 + 1 * a.val = t.val * 256 + a.val; rw [e0]; omega
  | ⟨1, _⟩ => show win0_0.index t (1 : Fin 2) * 2048 + 1 * k.val = k.val; rw [e1]; omega

/-- Every point's block of a weight window is the whole weight array. -/
theorem block1_eq (c : Dev nD) (t : Fin cfg0.N) :
    (iblk m c 1 t : S2048x2048.Idx → EReal) = m ((c : Thread nD τ).loc main_arg2) := by
  obtain ⟨-, -, e0, e1, -⟩ := idx_facts t
  funext y
  show (V m c main_v2 : S2048x2048.Idx → EReal) (((cfg0.win 1).blk t).view.emb y) = _
  rw [entry_w0]
  refine congrArg _ (funext fun ax => Fin.ext ?_)
  match ax with
  | ⟨0, _⟩ => show win0_1.index t (0 : Fin 2) * 2048 + 1 * (y 0).val = (y 0).val; rw [e0]; omega
  | ⟨1, _⟩ => show win0_1.index t (1 : Fin 2) * 2048 + 1 * (y 1).val = (y 1).val; rw [e1]; omega
theorem block2_eq (c : Dev nD) (t : Fin cfg0.N) :
    (iblk m c 2 t : S2048x2048.Idx → EReal) = m ((c : Thread nD τ).loc main_arg3) := by
  obtain ⟨-, -, -, -, e0, e1, -⟩ := idx_facts t
  funext y
  show (V m c main_v3 : S2048x2048.Idx → EReal) (((cfg0.win 2).blk t).view.emb y) = _
  rw [entry_w1]
  refine congrArg _ (funext fun ax => Fin.ext ?_)
  match ax with
  | ⟨0, _⟩ => show win0_2.index t (0 : Fin 2) * 2048 + 1 * (y 0).val = (y 0).val; rw [e0]; omega
  | ⟨1, _⟩ => show win0_2.index t (1 : Fin 2) * 2048 + 1 * (y 1).val = (y 1).val; rw [e1]; omega
theorem block3_eq (c : Dev nD) (t : Fin cfg0.N) :
    (iblk m c 3 t : S2048x2048.Idx → EReal) = m ((c : Thread nD τ).loc main_arg4) := by
  obtain ⟨-, -, -, -, -, -, e0, e1, -⟩ := idx_facts t
  funext y
  show (V m c main_v4 : S2048x2048.Idx → EReal) (((cfg0.win 3).blk t).view.emb y) = _
  rw [entry_w2]
  refine congrArg _ (funext fun ax => Fin.ext ?_)
  match ax with
  | ⟨0, _⟩ => show win0_3.index t (0 : Fin 2) * 2048 + 1 * (y 0).val = (y 0).val; rw [e0]; omega
  | ⟨1, _⟩ => show win0_3.index t (1 : Fin 2) * 2048 + 1 * (y 1).val = (y 1).val; rw [e1]; omega

/-! ## What a point writes back -/

/-- The chain of the three products of the joined inputs, of the arrays core c was launched with. -/
abbrev result (c : Dev nD) : S4096x2048.Idx → EReal :=
  chain (m ((c : Thread nD τ).loc main_arg0)) (m ((c : Thread nD τ).loc main_arg1))
    (m ((c : Thread nD τ).loc main_arg2)) (m ((c : Thread nD τ).loc main_arg3)) (m ((c : Thread nD τ).loc main_arg4))

theorem hz : (![0, 0] : Fin 2 → Nat) = fun _ => 0 := funext fun a => by fin_cases a <;> rfl

/-- Point t writes back block row t of the chain. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz]
  simp only [View.ld_unit_zero (S := S256x2048) hz, View.ld_unit_zero (S := S2048x2048) hz]
  funext y
  obtain ⟨a, b, rfl⟩ : ∃ (a : Fin 256) (b : Fin 2048), y = ix2 a b := ⟨y 0, y 1, eq_ix2 y⟩
  obtain ⟨-, -, -, -, -, -, -, -, e0, e1⟩ := idx_facts t
  have hemb : ((cfg0.win 4).blk t).view.emb (ix2 a b) = ix2 (rowOf t a) b := funext fun ax => Fin.ext (by
    match ax with
    | ⟨0, _⟩ => show win0_4.index t (0 : Fin 2) * 256 + 1 * a.val = t.val * 256 + a.val; rw [e0]; omega
    | ⟨1, _⟩ => show win0_4.index t (1 : Fin 2) * 2048 + 1 * b.val = b.val; rw [e1]; omega)
  show k0_pay1 (F := Ideal) (iblk m c 0 t) (iblk m c 1 t) (iblk m c 2 t) (iblk m c 3 t) (ix2 a b)
    = result m c (((cfg0.win 4).blk t).view.emb (ix2 a b))
  rw [hemb]
  refine (congrFun (payload_eq (iblk m c 0 t) (iblk m c 1 t) (iblk m c 2 t) (iblk m c 3 t)) (ix2 a b)).trans ?_
  exact mm_rows (rowOf t) _ _ _ _ (block3_eq m c t) (fun a2 c2 =>
    mm_rows (rowOf t) _ _ _ _ (block2_eq m c t) (fun a1 c1 =>
      mm_rows (rowOf t) _ _ _ _ (block1_eq m c t) (block0_apply m c t) a1 c1) a2 c2) a b

/-! ## The blocks cover the array -/

/-- An index is in point t's block iff each coordinate is in the block's range on its axis. -/
theorem mem_blk (t : Fin cfg0.N) (i : S4096x2048.Idx) :
    i ∈ ((cfg0.win 4).blk t).view.set ↔ ∀ a : Fin 2, win0_4.index t a * S256x2048.size a ≤ (i a).val
      ∧ (i a).val < win0_4.index t a * S256x2048.size a + S256x2048.size a := by
  show i ∈ ((View.whole main_v5).slice (win0_4.rect t)).set ↔ _
  rw [View.set_slice_whole, Rect.mem_set_unit]
  exact Iff.rfl

/-- Row r of the array is in the block of point r / 256. -/
theorem cover (i : S4096x2048.Idx) :
    ∃ t : Fin cfg0.N, (cfg0.win 4).flush t = true ∧ i ∈ ((cfg0.win 4).blk t).view.set := by
  have hi0 : (i 0).val < 4096 := (i 0).isLt
  have hi1 : (i 1).val < 2048 := (i 1).isLt
  have ht : (i 0).val / 256 < 16 := by omega
  refine ⟨⟨(i 0).val / 256, ht⟩, flush0_4 _, ?_⟩
  obtain ⟨-, -, -, -, -, -, -, -, e0, e1⟩ := idx_facts ⟨(i 0).val / 256, ht⟩
  rw [mem_blk]
  intro a
  match a with
  | ⟨0, _⟩ =>
    show win0_4.index ⟨(i 0).val / 256, ht⟩ (0 : Fin 2) * 256 ≤ (i 0).val
      ∧ (i 0).val < win0_4.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_4.index ⟨(i 0).val / 256, ht⟩ (1 : Fin 2) * 2048 ≤ (i 1).val
      ∧ (i 1).val < win0_4.index ⟨(i 0).val / 256, ht⟩ (1 : Fin 2) * 2048 + 2048
    rw [e1]; omega

/-! ## The array after the run, and the run -/

/-- The result array ends holding the chain. -/
theorem final (c : Dev nD) : (dats m 0 c).arrAt 4 cfg0.N = result m c :=
  (dats m 0 c).arrAt_eq_of_cover 4 (result m c) (fun t _ => flushed_eq m c t) cover

/-- Every weakly fair execution of the kernel program ends with the result array at the chain of the launch
    contents of the arguments, and the arguments as launched. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.KValue

end
-- ==== Proof.RefChain.lean ====
/-
  THE REFERENCE COMPUTES THE CHAIN. The reference multiplies the joined inputs by W0, cuts the product into its left
  and right halves, joins the halves again, multiplies by W1, cuts and joins, multiplies by W2, cuts and joins. Each
  cut-and-join gives the array back unchanged, and each host product, read at an entry, is the sum of products along
  the contracted coordinate, so the result is ((X · W0) · W1) · W2.
-/
import proofs.«118144_j91190745629219_1_alg».proof.Proof.Gen.ReferenceIdeal.Read
import proofs.«118144_j91190745629219_1_alg».proof.Proof.ChainSpec

open scoped BigOperators

noncomputable section

namespace Cert.ReferenceIdeal.RefValue

open Cert.ReferenceIdeal Cert.ReferenceIdeal.Gen Cert.ReferenceIdeal.Read Idealize.ShloMosaic Idealize.ShloMosaic.ValueIdx
open Cert.Chain (mm joined chain)

variable (x0 x1 : (⟨S4096x1024, .f32⟩ : BufTy).Contents (Elt Ideal))
variable (w0 w1 w2 : (⟨S2048x2048, .f32⟩ : BufTy).Contents (Elt Ideal))

/-- The first concatenation is the two inputs side by side. -/
theorem joined_inputs : val_main_v0 (F := Ideal) x0 x1 = joined x0 x1 := by
  unfold val_main_v0
  exact Cert.Chain.concatenate_eq_joined x0 x1 _

/-- The first product. -/
theorem product0 : val_main_v1 (F := Ideal) x0 x1 w0 = mm (val_main_v0 (F := Ideal) x0 x1) w0 := by
  funext i
  rw [val_main_v1_apply]
  exact Finset.sum_congr rfl fun k _ => by
    congr 2 <;> (funext a; match a with | ⟨0, _⟩ => rfl | ⟨1, _⟩ => rfl)

/-- Its two halves joined again. -/
theorem rejoined0 : val_main_v4 (F := Ideal) x0 x1 w0 = val_main_v1 (F := Ideal) x0 x1 w0 := by
  unfold val_main_v4 val_main_v2 val_main_v3
  exact Cert.Chain.concatenate_halves _ _ _ _

/-- The second product. -/
theorem product1 : val_main_v5 (F := Ideal) x0 x1 w0 w1 = mm (val_main_v4 (F := Ideal) x0 x1 w0) w1 := by
  funext i
  rw [val_main_v5_apply]
  exact Finset.sum_congr rfl fun k _ => by
    congr 2 <;> (funext a; match a with | ⟨0, _⟩ => rfl | ⟨1, _⟩ => rfl)

/-- Its two halves joined again. -/
theorem rejoined1 : val_main_v8 (F := Ideal) x0 x1 w0 w1 = val_main_v5 (F := Ideal) x0 x1 w0 w1 := by
  unfold val_main_v8 val_main_v6 val_main_v7
  exact Cert.Chain.concatenate_halves _ _ _ _

/-- The third product. -/
theorem product2 : val_main_v9 (F := Ideal) x0 x1 w0 w1 w2 = mm (val_main_v8 (F := Ideal) x0 x1 w0 w1) w2 := by
  funext i
  rw [val_main_v9_apply]
  exact Finset.sum_congr rfl fun k _ => by
    congr 2 <;> (funext a; match a with | ⟨0, _⟩ => rfl | ⟨1, _⟩ => rfl)

/-- Its two halves joined again: the reference's result. -/
theorem rejoined2 : val_main_v12 (F := Ideal) x0 x1 w0 w1 w2 = val_main_v9 (F := Ideal) x0 x1 w0 w1 w2 := by
  unfold val_main_v12 val_main_v10 val_main_v11
  exact Cert.Chain.concatenate_halves _ _ _ _

/-- The reference's result is the chain of the three products of the joined inputs. -/
theorem result_eq_chain : val_main_v12 (F := Ideal) x0 x1 w0 w1 w2 = chain x0 x1 w0 w1 w2 := by
  rw [rejoined2, product2, rejoined1, product1, rejoined0, product0, joined_inputs]
  rfl

end Cert.ReferenceIdeal.RefValue

end
-- ==== Proof.lean ====
/-
  A chain of three matrix products. The kernel joins the two [4096, 1024] inputs side by side into X, narrows X and the
  three [2048, 2048] weight arrays to bf16, and on a grid of 16 row blocks computes ((X · W0) · W1) · W2 with the
  intermediate products narrowed to bf16. The reference computes X · W0, cuts it into two halves and joins them again,
  multiplies by W1, cuts and joins, multiplies by W2, cuts and joins. At the ideal values narrowing is the identity,
  a cut followed by the join is the identity, and both sides take the three products in the same order, each product
  an exact sum of products of extended reals: the two results are one function of the inputs, entry by entry, with
  no use of finiteness.

  The kernel's result array is read off its run block by block (Proof/KernelValue.lean over Proof/KernelPayload.lean),
  the reference's result off its run one operation at a time (Proof/RefChain.lean); both are `Cert.Chain.chain`
  (Proof/ChainSpec.lean). The pass that idealizes the kernel rewrote nothing, so the kernel's idealization is its own
  text read at the ideal values.
-/
import proofs.«118144_j91190745629219_1_alg».proof.Defs
import proofs.«118144_j91190745629219_1_alg».proof.Proof.Gen.Kernel
import proofs.«118144_j91190745629219_1_alg».proof.Proof.Gen.Kernel.Skeleton
import proofs.«118144_j91190745629219_1_alg».proof.Proof.Gen.Kernel.Launch
import proofs.«118144_j91190745629219_1_alg».proof.Proof.Gen.Kernel.Points
import proofs.«118144_j91190745629219_1_alg».proof.Proof.Gen.Kernel.Frame
import proofs.«118144_j91190745629219_1_alg».proof.Proof.Gen.KernelIdeal
import proofs.«118144_j91190745629219_1_alg».proof.Proof.Gen.KernelIdeal.Skeleton
import proofs.«118144_j91190745629219_1_alg».proof.Proof.Gen.KernelIdeal.Launch
import proofs.«118144_j91190745629219_1_alg».proof.Proof.Gen.KernelIdeal.Points
import proofs.«118144_j91190745629219_1_alg».proof.Proof.Gen.KernelIdeal.Frame
import proofs.«118144_j91190745629219_1_alg».proof.Proof.Gen.ReferenceIdeal
import proofs.«118144_j91190745629219_1_alg».proof.Proof.Gen.Pre_finite_inputs
import proofs.«118144_j91190745629219_1_alg».proof.Proof.Gen.KernelIdeal.Value
import proofs.«118144_j91190745629219_1_alg».proof.Proof.Gen.ReferenceIdeal.Run
import proofs.«118144_j91190745629219_1_alg».proof.Proof.Gen.ReferenceIdeal.Read
import proofs.«118144_j91190745629219_1_alg».proof.Proof.KernelValue
import proofs.«118144_j91190745629219_1_alg».proof.Proof.RefChain
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference, a list of host operations, runs and leaves its arguments as launched: its run with the result
    dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten when it was idealized. -/
theorem preserves : Cert.preserves_Kernel_KernelIdeal := trivial

/-- From memories that agree on the five arguments both programs end with their result array at the chain of the
    three products of the joined inputs: the kernel's by its blocks of rows, the reference's by its operations. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq_chain,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
